-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x16 : Shape := ⟨2, ![4096, 16]⟩
abbrev S16 : Shape := ⟨1, ![16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096x16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x16 .f32) (main_arg3 : FVec F S16 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x16 : Shape := ⟨2, ![4096, 16]⟩
abbrev S16 : Shape := ⟨1, ![16]⟩
abbrev S1x16 : Shape := ⟨2, ![1, 16]⟩
abbrev S_ : Shape := ⟨0, ![]⟩
abbrev S8192x4096 : Shape := ⟨2, ![8192, 4096]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x16, .f32⟩
  | .hbm, ⟨3, _⟩ => ⟨S16, .f32⟩
  | .hbm, ⟨4, _⟩ => ⟨S4096x16, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S8192x4096, .f32⟩
  | .hbm, ⟨14, _⟩ => ⟨S8192x4096, .f32⟩
  | .hbm, ⟨15, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x4096 : S_.BroadcastsInDim S4096x4096 (![] : Fin 0 → Fin S4096x4096.rank)
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S8192x4096_S4x2048x4096 : S8192x4096.ShapeCasts S4x2048x4096
  dot_S4096x16_S4096x16_S4096x4096_1_1_0_0_n_n_wf : DotDims.WF S4096x16 S4096x16 S4096x4096 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S4096x16_S4096x16_S4096x4096_1_1_0_0_n_n : DotDims S4096x16 S4096x16 S4096x4096 where
  lhsContracting := [1]
  rhsContracting := [1]
  lhsNonContracting := [0]
  rhsNonContracting := [0]
  lhsBatch := []
  rhsBatch := []
  wf := dot_S4096x16_S4096x16_S4096x4096_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x16 : Shape := ⟨2, ![4096, 16]⟩
abbrev S16 : Shape := ⟨1, ![16]⟩
abbrev S1x16 : Shape := ⟨2, ![1, 16]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x16, .f32⟩
  | .hbm, ⟨3, _⟩ => ⟨S16, .f32⟩
  | .hbm, ⟨4, _⟩ => ⟨S4096x16, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x4096 : S_.BroadcastsInDim S4096x4096 (![] : Fin 0 → Fin S4096x4096.rank)
  dot_S4096x16_S4096x16_S4096x4096_1_1_0_0_n_n_wf : DotDims.WF S4096x16 S4096x16 S4096x4096 [1] [1] [0] [0] [] []
  dot_S4x2048x4096_S4096x4096_S4x2048x4096_2_1_01_0_n_n_wf : DotDims.WF S4x2048x4096 S4096x4096 S4x2048x4096 [2] [1] [0, 1] [0] [] []

variable [Facts₀]

def dot_S4096x16_S4096x16_S4096x4096_1_1_0_0_n_n : DotDims S4096x16 S4096x16 S4096x4096 where
  lhsContracting := [1]
  rhsContracting := [1]
  lhsNonContracting := [0]
  rhsNonContracting := [0]
  lhsBatch := []
  rhsBatch := []
  wf := dot_S4096x16_S4096x16_S4096x4096_1_1_0_0_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.StepIdeal.lean ====
/-
  What one grid point of the blocked matrix product leaves behind, read as a value.

  The kernel walks a grid (i, j, k) of 8 x 4 x 4 points. At each point it holds a 1024 x 1024 block `x` of the
  left operand (rows of block-row i, columns of the k-th quarter of the contracted axis) and a 1024 x 1024 block `w`
  of the weight (rows of block-row j, the same quarter of the contracted axis), and it keeps a 1024 x 1024
  accumulator `acc` that survives from one point to the next. One step of the body is

      step x w acc = acc + x · wᵀ            (the contraction runs over the second axis of both blocks)

  and the three control cases differ only in what the accumulator is before the step and in whether the
  accumulator is copied out afterwards:

    * k = 0        the accumulator is first overwritten with zeros, so the point leaves `step x w 0`;
    * k = 1, 2     the point leaves `step x w acc` over what the previous point left;
    * k = 3        the same, and the output block receives a copy of the new accumulator.

  Each lemma below says that what the run found in the accumulator (or in the output block) for a case is
  exactly that one term. Every store of the body overwrites its whole buffer and every load reads a whole
  buffer, so a buffer read back after a list of stores is the last store's payload, and a load issued after a
  store reads that store's payload.
-/
import proofs.«153105_j25469156065845_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Step

open Cert.KernelIdeal Cert.KernelIdeal.Gen

variable {F : FTy → Type} [FloatOps F]

/-- Both offsets of the one rectangle the body ever uses are zero: it is the whole 1024 x 1024 buffer. -/
theorem origin : (![0, 0] : Fin 2 → Nat) = fun _ => 0 := funext fun a => by fin_cases a <;> rfl

/-- The all-zero block the first point of every run of four writes into the accumulator. -/
abbrev zeroBlock : Vec F S1024x1024 .f32 := k0_pay1 (F := F)

/-- One accumulation step: the accumulator plus the product of the two blocks over their second axis. -/
abbrev step (x w acc : Vec F S1024x1024 .f32) : Vec F S1024x1024 .f32 := k0_pay2 x w acc

/-- k = 0: the accumulator is zeroed, read back, and left at one step from zero. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x w : Vec F S1024x1024 .f32) :
    sout0_A_0 c i a3 h3 a4 h4 a5 h5 a6 h6 hc0 hc1 x w = step x w zeroBlock := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- k = 1, 2: the accumulator is left at one step from what the previous point left in it. -/
theorem acc_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x w acc : Vec F S1024x1024 .f32) :
    sout0_B_0 c i a3 h3 a4 h4 a5 h5 a6 h6 hc0 hc1 x w acc = step x w acc := by
  unfold sout0_B_0
  rw [View.read_writes_eq_canon _ _ _ (scover0_B_0 c i a3 h3 a4 h4 a5 h5 a6 h6 hc0 hc1 x w acc)]
  unfold kernelRun0_B
  dsimp only
  sl_unfold_words
  rw [View.canon_unit_zero origin]
  simp only [View.readAt_eq_ld, h3.read_unread, h4.read_unread, h6.read_unread, View.ld_unit_zero (S := S1024x1024) origin]

/-- k = 3: the accumulator again advances by one step … -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x w acc : Vec F S1024x1024 .f32) :
    sout0_C_0 c i a3 h3 a4 h4 a5 h5 a6 h6 hc0 hc1 x w acc = step x w acc := by
  unfold sout0_C_0
  rw [View.read_writes_eq_canon _ _ _ (scover0_C_0 c i a3 h3 a4 h4 a5 h5 a6 h6 hc0 hc1 x w acc)]
  unfold kernelRun0_C
  dsimp only
  sl_unfold_words
  rw [View.canon_unit_zero origin]
  simp only [View.readAt_eq_ld, h3.read_unread, h4.read_unread, h6.read_unread, View.ld_unit_zero (S := S1024x1024) origin]

/-- … and the output block receives the accumulator as just updated (a load issued after the update's store). -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x w acc : Vec F S1024x1024 .f32) :
    out0_C_2 c i a3 h3 a4 h4 a5 h5 a6 h6 hc0 hc1 x w acc = step x w acc := by
  unfold out0_C_2
  rw [View.read_writes_eq_canon _ _ _ (cover0_C_2 c i a3 h3 a4 h4 a5 h5 a6 h6 hc0 hc1 x w acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin]

end Cert.KernelIdeal.Step

end
-- ==== Proof.Rounds.lean ====
/-
  A round of four points, unrolled.

  The grid's points are numbered 16·i + 4·j + k. Four consecutive points b, b+1, b+2, b+3 with b a multiple of 4
  share the output block (i, j) and walk k = 0, 1, 2, 3 through the four quarters of the contracted axis. The
  accumulator is zeroed at b and advanced by one step at each of the four points, and the output block is
  written at b + 3 only. So what point b + 3 leaves in the output block is

      step x₃ w₃ (step x₂ w₂ (step x₁ w₁ (step x₀ w₀ 0)))

  with xₖ, wₖ the operand blocks the pipeline staged for point b + k. Each line of that unrolling is one of the
  per-case facts about a single point; no induction over the 128 points is needed, because a round never looks
  further back than its own first point.
-/
import proofs.«153105_j25469156065845_1_alg».proof.Proof.StepIdeal

noncomputable section

open Idealize.ShloMosaic Idealize.ShloMosaic.TcCoe Idealize.SL.Sem
open Idealize.ShloMosaic.Pipeline (Dat)

namespace Cert.KernelIdeal.Rounds

open Cert.KernelIdeal Cert.KernelIdeal.Gen Cert.KernelIdeal.Step

variable {F : FTy → Type} [FloatOps F]
variable (m : (ℓ : Loc nD τ sig) → Buf (Elt F) ℓ)

/-- The left operand's block staged for point `n`, as a plain 1024 x 1024 array. -/
abbrev lhsBlock (c : Dev nD) (n : ℕ) (h : n < cfg0.N) : Vec F S1024x1024 .f32 := iblk m c 0 ⟨n, h⟩
/-- The weight's block staged for point `n`. -/
abbrev rhsBlock (c : Dev nD) (n : ℕ) (h : n < cfg0.N) : Vec F S1024x1024 .f32 := iblk m c 1 ⟨n, h⟩

/-- At the first point of a round the accumulator is left one step from zero. -/
theorem acc_at_first (c : Dev nD) (n : ℕ) (h : n < cfg0.N) (h0 : n % 4 = 0) :
    (outsAt0 m c n h).2 = step (lhsBlock m c n h) (rhsBlock m c n h) zeroBlock := by
  have h1 : ¬n % 4 = 3 := by omega
  rw [outsAt0_A m c ⟨n, h⟩ h0 h1]
  dsimp only
  exact acc_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    scM0_0 (Memref.isWhole_whole _) ((hcond0_0 ⟨n, h⟩).mpr h0) (fun hh => h1 ((hcond0_1 ⟨n, h⟩).mp hh))
    (iblk m c 0 ⟨n, h⟩) (iblk m c 1 ⟨n, h⟩)

/-- At the second and third point it is left one step from what the point before left. -/
theorem acc_at_middle (c : Dev nD) (n : ℕ) (h : n + 1 < cfg0.N) (h0 : ¬(n + 1) % 4 = 0) (h1 : ¬(n + 1) % 4 = 3) :
    (outsAt0 m c (n + 1) h).2
      = step (lhsBlock m c (n + 1) h) (rhsBlock m c (n + 1) h) (outsAt0 m c n (Nat.lt_of_succ_lt h)).2 := by
  rw [outsAt0_B m c ⟨n + 1, h⟩ h0 h1]
  dsimp only
  exact acc_middle c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) scM0_0 (Memref.isWhole_whole _) (fun hh => h0 ((hcond0_0 ⟨n + 1, h⟩).mp hh))
    (fun hh => h1 ((hcond0_1 ⟨n + 1, h⟩).mp hh)) (iblk m c 0 ⟨n + 1, h⟩) (iblk m c 1 ⟨n + 1, h⟩)
    (outsAt0 m c n (Nat.lt_of_succ_lt h)).2

/-- At the last point the output block receives one step from what the point before left. -/
theorem out_at_last (c : Dev nD) (n : ℕ) (h : n + 1 < cfg0.N) (h0 : ¬(n + 1) % 4 = 0) (h1 : (n + 1) % 4 = 3) :
    (outsAt0 m c (n + 1) h).1
      = step (lhsBlock m c (n + 1) h) (rhsBlock m c (n + 1) h) (outsAt0 m c n (Nat.lt_of_succ_lt h)).2 := by
  rw [outsAt0_C m c ⟨n + 1, h⟩ h0 h1]
  dsimp only
  exact out_last c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) scM0_0 (Memref.isWhole_whole _) (fun hh => h0 ((hcond0_0 ⟨n + 1, h⟩).mp hh))
    ((hcond0_1 ⟨n + 1, h⟩).mpr h1) (iblk m c 0 ⟨n + 1, h⟩) (iblk m c 1 ⟨n + 1, h⟩)
    (outsAt0 m c n (Nat.lt_of_succ_lt h)).2

/-- The whole round: what the point `b + 3` writes into the output block, from the four pairs of staged blocks. -/
theorem out_of_round (c : Dev nD) (b : ℕ) (h : b + 3 < cfg0.N) (hb : b % 4 = 0) :
    (outsAt0 m c (b + 3) h).1
      = step (lhsBlock m c (b + 3) h) (rhsBlock m c (b + 3) h)
          (step (lhsBlock m c (b + 2) (by omega)) (rhsBlock m c (b + 2) (by omega))
            (step (lhsBlock m c (b + 1) (by omega)) (rhsBlock m c (b + 1) (by omega))
              (step (lhsBlock m c b (by omega)) (rhsBlock m c b (by omega)) zeroBlock))) := by
  rw [out_at_last m c (b + 2) h (by omega) (by omega), acc_at_middle m c (b + 1) (by omega) (by omega) (by omega),
    acc_at_middle m c b (by omega) (by omega) (by omega), acc_at_first m c b (by omega) hb]

end Cert.KernelIdeal.Rounds

end
-- ==== Proof.StepValue.lean ====
/-
  One accumulation step, entry by entry, over the extended reals.

  At the ideal reading a narrowing of the float format is the identity, the matrix unit's product into a zero
  accumulator is the plain sum of products over the contracted axis, and `addf` is addition. So entry (p, q)
  of `step x w acc` is

      acc[p, q] + ∑ₐ x[p, a] · w[q, a]        (a runs over the 1024 positions of the blocks' second axis)

  — both blocks are contracted along their SECOND axis, which is how the kernel multiplies by the transposed
  weight without ever transposing it. The zero block reads 0 everywhere.
-/
import proofs.«153105_j25469156065845_1_alg».proof.Proof.StepIdeal
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.StepValue

open Cert.KernelIdeal Cert.KernelIdeal.Gen Cert.KernelIdeal.Step

/-- Of the left block the product reads row `i 0` … -/
theorem lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … at the contraction's position; -/
theorem lhs_col (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
/-- of the right block it reads row `i 1` (the output's COLUMN) … -/
theorem rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … at the same position. -/
theorem rhs_col (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The matrix unit's product of two blocks into the zero accumulator, at entry (p, q): the sum over the shared
    second axis. -/
theorem product_apply (x w : FVec Ideal S1024x1024 .bf16) (p q : Fin 1024) :
    matmul dot_S1024x1024_S1024x1024_S1024x1024_1_1_0_0_n_n none x w (constant S1024x1024 .f32 0x00000000#32) (ix2 p q)
      = ∑ a : Fin 1024, x (ix2 p a) * w (ix2 q a) := by
  show FloatOps.matmul dot_S1024x1024_S1024x1024_S1024x1024_1_1_0_0_n_n none x w (constant S1024x1024 .f32 0x00000000#32) (ix2 p q) = _
  rw [Ideal.matmul_constant_zero_apply, ← Equiv.sum_comp (ValueIdx.contrEquiv1 dot_S1024x1024_S1024x1024_S1024x1024_1_1_0_0_n_n 1024 rfl rfl).symm]
  refine Finset.sum_congr rfl fun a _ => ?_
  have ha := ValueIdx.contrEquiv1_symm_val dot_S1024x1024_S1024x1024_S1024x1024_1_1_0_0_n_n 1024 rfl rfl a
  have el : dot_S1024x1024_S1024x1024_S1024x1024_1_1_0_0_n_n.lhsIdx (ix2 p q) ((ValueIdx.contrEquiv1 dot_S1024x1024_S1024x1024_S1024x1024_1_1_0_0_n_n 1024 rfl rfl).symm a) = ix2 p a := funext fun d => Fin.ext (by
    match d with
    | ⟨0, _⟩ => exact lhs_row _ _
    | ⟨1, _⟩ => exact (lhs_col _ _).trans ha)
  have er : dot_S1024x1024_S1024x1024_S1024x1024_1_1_0_0_n_n.rhsIdx (ix2 p q) ((ValueIdx.contrEquiv1 dot_S1024x1024_S1024x1024_S1024x1024_1_1_0_0_n_n 1024 rfl rfl).symm a) = ix2 q a := funext fun d => Fin.ext (by
    match d with
    | ⟨0, _⟩ => exact rhs_row _ _
    | ⟨1, _⟩ => exact (rhs_col _ _).trans ha)
  rw [el, er]

/-- The zero block is zero at every entry. -/
theorem zeroBlock_apply (j : S1024x1024.Idx) : zeroBlock (F := Ideal) j = 0 := by
  unfold zeroBlock k0_pay1
  simp only [shapeCast_self]
  show Ideal.ofBits .f32 0x00000000#32 = 0
  exact Ideal.ofBits_zero_f32

/-- One step at entry (p, q): the accumulator's entry plus the row-by-row product over the contracted axis. -/
theorem step_apply (x w acc : Vec Ideal S1024x1024 .f32) (p q : Fin 1024) :
    step (F := Ideal) x w acc (ix2 p q) = acc (ix2 p q) + ∑ a : Fin 1024, x (ix2 p a) * w (ix2 q a) := by
  unfold step k0_pay2
  simp only [shapeCast_self]
  exact congrArg (fun s => acc (ix2 p q) + s)
    (product_apply (truncf (F := Ideal) .bf16 x bitsLt_bf16_f32) (truncf (F := Ideal) .bf16 w bitsLt_bf16_f32) p q)

end Cert.KernelIdeal.StepValue

end
-- ==== Proof.Quarters.lean ====
/-
  Four quarters make the whole: a sum over 4096 consecutive positions, taken as four sums over 1024 positions
  each and added up one after the other starting from zero, is the sum over all 4096 positions.

  This is the one law that joins the two programs. The blocked product adds up the contracted axis a quarter at a
  time, `(((0 + q₀) + q₁) + q₂) + q₃`; the plain product adds it up in one go. Nothing but associativity of
  addition and `0 + a = a` is used, so the law holds in every commutative additive monoid — in particular
  among the extended reals with their infinities, where no cancellation or distributivity would be available.
-/
import Mathlib.Algebra.BigOperators.Fin

open scoped BigOperators

namespace Cert.Quarters

variable {M : Type*} [AddCommMonoid M]

/-- Position `a` of quarter number `k` of a 4096-long axis. -/
abbrev pos (k : Fin 4) (a : Fin 1024) : Fin 4096 := ⟨1024 * k.val + a.val, by omega⟩

/-- The quarters added one after the other from zero are the whole sum. -/
theorem sum_quarters (f : Fin 4096 → M) :
    (((0 + ∑ a : Fin 1024, f (pos 0 a)) + ∑ a : Fin 1024, f (pos 1 a)) + ∑ a : Fin 1024, f (pos 2 a))
        + ∑ a : Fin 1024, f (pos 3 a) = ∑ n : Fin 4096, f n := by
  rw [zero_add]
  have split : ∑ n : Fin 4096, f n
      = ((∑ a : Fin 1024, f (pos 0 a) + ∑ a : Fin 1024, f (pos 1 a)) + ∑ a : Fin 1024, f (pos 2 a))
          + ∑ a : Fin 1024, f (pos 3 a) := by
    have h := Fin.sum_univ_add (a := 1024 + 1024 + 1024) (b := 1024) f
    have h' := Fin.sum_univ_add (a := 1024 + 1024) (b := 1024) fun n : Fin (1024 + 1024 + 1024) => f (Fin.castAdd 1024 n)
    have h'' := Fin.sum_univ_add (a := 1024) (b := 1024) fun n : Fin (1024 + 1024) => f (Fin.castAdd 1024 (Fin.castAdd 1024 n))
    rw [h', h''] at h
    refine h.trans ?_
    refine congrArg₂ (· + ·) (congrArg₂ (· + ·) (congrArg₂ (· + ·) ?_ ?_) ?_) ?_ <;>
      exact Finset.sum_congr rfl fun a _ => congrArg f (Fin.ext (by simp [pos, Fin.natAdd, Fin.castAdd]))
  exact split.symm

end Cert.Quarters
-- ==== Proof.Product.lean ====
/-
  From the output blocks to the output array: the blocked product IS the plain product.

  Write X for the 8192 x 4096 left operand and W for the 4096 x 4096 weight as the kernel's region finds them.
  Point 16·i + 4·j + k stages rows 1024·i … of X and rows 1024·j … of W, both at columns 1024·k … (the k-th
  quarter of the contracted axis). Reading a full round entry by entry, the output block (i, j) receives at
  local entry (p, q)

      (((0 + Σₐ X[r, a]·W[o, a]) + Σₐ X[r, 1024+a]·W[o, 1024+a]) + …) + Σₐ X[r, 3072+a]·W[o, 3072+a]
          with r = 1024·i + p, o = 1024·j + q,

  which by the quarters law is Σₙ X[r, n]·W[o, n] over all 4096 positions: entry (r, o) of X·Wᵀ. The 32 output
  blocks tile the 8192 x 4096 result, each written back exactly once (at its round's last point), so the
  result array ends holding X·Wᵀ everywhere.
-/
import proofs.«153105_j25469156065845_1_alg».proof.Proof.Rounds
import proofs.«153105_j25469156065845_1_alg».proof.Proof.StepValue
import proofs.«153105_j25469156065845_1_alg».proof.Proof.Quarters

noncomputable section

open Idealize.ShloMosaic Idealize.ShloMosaic.TcCoe Idealize.SL.Sem
open Idealize.ShloMosaic.Pipeline (Dat)
open Idealize.ShloMosaic.ValueIdx
open scoped BigOperators

namespace Cert.KernelIdeal.Product

open Cert.KernelIdeal Cert.KernelIdeal.Gen Cert.KernelIdeal.Step Cert.KernelIdeal.Rounds Cert.KernelIdeal.StepValue

/-- The plain product with the transposed weight: entry (r, o) is the sum over the shared second axis. -/
def timesTransposed (X : Vec Ideal S8192x4096 .f32) (W : Vec Ideal S4096x4096 .f32) : Vec Ideal S8192x4096 .f32 :=
  fun j => ∑ n : Fin 4096, X (ix2 (j 0) n) * W (ix2 (j 1) n)

section Blocks

variable {F : FTy → Type} [FloatOps F]
variable (m : (ℓ : Loc nD τ sig) → Buf (Elt F) ℓ)

/-- The left operand as the region finds it (the reshaped input), as a plain 8192 x 4096 array. -/
abbrev lhsArr (c : Dev nD) : Vec F S8192x4096 .f32 := V m c main_v7
/-- The weight as the region finds it (the adapted weight the host lines computed). -/
abbrev rhsArr (c : Dev nD) : Vec F S4096x4096 .f32 := V m c main_v6

/-- Which block each window holds at point t = 16·i + 4·j + k: the left operand's block (i, k), the weight's block
    (j, k), the output's block (i, j) — decided once over the 128 points. -/
theorem block_of_point : ∀ t : Fin cfg0.N, win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- Entry (p, a) of the left block staged for point `n` is X at row 1024·(n / 16) + p, column 1024·(n % 4) + a. -/
theorem lhsBlock_apply (c : Dev nD) (n : ℕ) (h : n < cfg0.N) (p a : Fin 1024) (R : Fin 8192) (N : Fin 4096)
    (hR : R.val = 1024 * (n / 16) + p.val) (hN : N.val = 1024 * (n % 4) + a.val) :
    lhsBlock m c n h (ix2 p a) = lhsArr m c (ix2 R N) := by
  obtain ⟨e0, e1, -⟩ := block_of_point ⟨n, h⟩
  unfold lhsBlock iblk
  rw [View.read_apply]
  show V m c main_v7 _ = V m c main_v7 _
  congr 1
  funext d
  apply Fin.ext
  match d with
  | ⟨0, _⟩ => show win0_0.index ⟨n, h⟩ (0 : Fin 2) * 1024 + 1 * p.val = R.val; rw [e0, hR]; dsimp only; omega
  | ⟨1, _⟩ => show win0_0.index ⟨n, h⟩ (1 : Fin 2) * 1024 + 1 * a.val = N.val; rw [e1, hN]; dsimp only; omega

/-- Entry (q, a) of the weight block staged for point `n` is W at row 1024·(n / 4 % 4) + q, column 1024·(n % 4) + a. -/
theorem rhsBlock_apply (c : Dev nD) (n : ℕ) (h : n < cfg0.N) (q a : Fin 1024) (O : Fin 4096) (N : Fin 4096)
    (hO : O.val = 1024 * (n / 4 % 4) + q.val) (hN : N.val = 1024 * (n % 4) + a.val) :
    rhsBlock m c n h (ix2 q a) = rhsArr m c (ix2 O N) := by
  obtain ⟨-, -, e0, e1, -⟩ := block_of_point ⟨n, h⟩
  unfold rhsBlock iblk
  rw [View.read_apply]
  show V m c main_v6 _ = V m c main_v6 _
  congr 1
  funext d
  apply Fin.ext
  match d with
  | ⟨0, _⟩ => show win0_1.index ⟨n, h⟩ (0 : Fin 2) * 1024 + 1 * q.val = O.val; rw [e0, hO]; dsimp only; omega
  | ⟨1, _⟩ => show win0_1.index ⟨n, h⟩ (1 : Fin 2) * 1024 + 1 * a.val = N.val; rw [e1, hN]; dsimp only; omega

end Blocks

variable (m : (ℓ : Loc nD τ sig) → Buf (Elt Ideal) ℓ)

/-- One quarter's contribution at the round's k-th point: the sum over that quarter of the contracted axis. -/
theorem quarter_sum (c : Dev nD) (b : ℕ) (hb : b % 4 = 0) (k : Fin 4) (h : b + k.val < cfg0.N) (p q : Fin 1024)
    (R : Fin 8192) (O : Fin 4096) (hR : R.val = 1024 * (b / 16) + p.val) (hO : O.val = 1024 * (b / 4 % 4) + q.val) :
    ∑ a : Fin 1024, lhsBlock m c (b + k.val) h (ix2 p a) * rhsBlock m c (b + k.val) h (ix2 q a)
      = ∑ a : Fin 1024, lhsArr m c (ix2 R (Cert.Quarters.pos k a)) * rhsArr m c (ix2 O (Cert.Quarters.pos k a)) := by
  have hk := k.isLt
  refine Finset.sum_congr rfl fun a _ => ?_
  rw [lhsBlock_apply m c (b + k.val) h p a R (Cert.Quarters.pos k a) (by rw [hR]; omega) (by show 1024 * k.val + a.val = _; omega),
    rhsBlock_apply m c (b + k.val) h q a O (Cert.Quarters.pos k a) (by rw [hO]; omega) (by show 1024 * k.val + a.val = _; omega)]

/-- Entry (p, q) of what a round's last point writes into the output block: entry (r, o) of X·Wᵀ. -/
theorem round_apply (c : Dev nD) (b : ℕ) (h : b + 3 < cfg0.N) (hb : b % 4 = 0) (p q : Fin 1024)
    (R : Fin 8192) (O : Fin 4096) (hR : R.val = 1024 * (b / 16) + p.val) (hO : O.val = 1024 * (b / 4 % 4) + q.val) :
    (outsAt0 m c (b + 3) h).1 (ix2 p q) = timesTransposed (lhsArr m c) (rhsArr m c) (ix2 R O) := by
  rw [out_of_round m c b h hb, step_apply, step_apply, step_apply, step_apply, zeroBlock_apply]
  show _ = ∑ n : Fin 4096, lhsArr m c (ix2 R n) * rhsArr m c (ix2 O n)
  rw [← Cert.Quarters.sum_quarters fun n : Fin 4096 => lhsArr m c (ix2 R n) * rhsArr m c (ix2 O n)]
  have q0 := quarter_sum m c b hb 0 (by show b + 0 < _; omega) p q R O hR hO
  have q1 := quarter_sum m c b hb 1 (by show b + 1 < _; omega) p q R O hR hO
  have q2 := quarter_sum m c b hb 2 (by show b + 2 < _; omega) p q R O hR hO
  have q3 := quarter_sum m c b hb 3 h p q R O hR hO
  exact congrArg₂ (· + ·) (congrArg₂ (· + ·) (congrArg₂ (· + ·) (congrArg (0 + ·) q0) q1) q2) q3

end Cert.KernelIdeal.Product

end
-- ==== Proof.Result.lean ====
/-
  The kernel's result, as one function of its arguments.

  Every output block is written back once, at the last point of its round, and holds there the matching block of
  X·Wᵀ; the 8 x 4 blocks tile the 8192 x 4096 result. So the result array ends holding X·Wᵀ, where X is the
  [4, 2048, 4096] input laid out row after row as 8192 rows, and W the adapted weight

      W = base + 1 · ((U ∘ s) · Vᵀ)

  that the host lines before the kernel compute. The one host line after the kernel folds the 8192 rows back into
  [4, 2048]; entry (b, s, o) of the program's result is therefore Σₙ x[b, s, n] · W[o, n].
-/
import proofs.«153105_j25469156065845_1_alg».proof.Proof.Product
import Idealize.ShloMosaic.Lib.StableHlo.Run

noncomputable section

open Idealize.ShloMosaic Idealize.ShloMosaic.TcCoe Idealize.SL.Sem
open Idealize.ShloMosaic.Pipeline (Dat)
open Idealize.ShloMosaic.ValueIdx
open scoped BigOperators

namespace Cert.KernelIdeal.Result

open Cert.KernelIdeal Cert.KernelIdeal.Gen Cert.KernelIdeal.Product

variable (m : (ℓ : Loc nD τ sig) → Buf (Elt Ideal) ℓ) (ρ : Dev nD → PrngReg)

/-- What a round's last point writes back is its block of X·Wᵀ. -/
theorem flushed_eq (c : Dev nD) (t : Fin cfg0.N) (hf : (cfg0.win 2).flush t = true) :
    (dats m 0 c).flushed 2 t
      = ((cfg0.win 2).blk t).view.read (Elt Ideal) (timesTransposed (lhsArr m c) (rhsArr m c)) := by
  have h3 : t.val % 4 = 3 := (flush0_2 t).mp hf
  have hN : cfg0.N = 128 := N_0
  obtain ⟨n, hn⟩ := t
  dsimp only at h3
  obtain ⟨b, rfl⟩ : ∃ b, n = b + 3 := ⟨n - 3, by omega⟩
  obtain ⟨-, -, -, -, e0, e1⟩ := block_of_point ⟨b + 3, hn⟩
  dsimp only at e0 e1
  show (cfg0.win 2).cut (grid0.coords ⟨b + 3, hn⟩) ((dats m 0 c).after 2 ⟨b + 3, hn⟩) = _
  rw [after0_2]
  refine funext fun (y : S1024x1024.Idx) => ?_
  rw [View.read_apply]
  have hy0 : (y 0).val < 1024 := (y 0).isLt
  have hy1 : (y 1).val < 1024 := (y 1).isLt
  show (outsAt0 m c (b + 3) hn).1 y = _
  refine ((congrArg (outsAt0 m c (b + 3) hn).1 (eq_ix2 y)).trans
    (round_apply m c b hn (by omega) (y 0) (y 1) ⟨1024 * (b / 16) + (y 0).val, by omega⟩
      ⟨1024 * (b / 4 % 4) + (y 1).val, by omega⟩ rfl rfl)).trans ?_
  refine congrArg (timesTransposed (lhsArr m c) (rhsArr m c)) (funext fun d => Fin.ext ?_)
  match d with
  | ⟨0, _⟩ => show 1024 * (b / 16) + (y 0).val = win0_2.index ⟨b + 3, hn⟩ (0 : Fin 2) * 1024 + 1 * (y 0).val; rw [e0]; dsimp only; omega
  | ⟨1, _⟩ => show 1024 * (b / 4 % 4) + (y 1).val = win0_2.index ⟨b + 3, hn⟩ (1 : Fin 2) * 1024 + 1 * (y 1).val; rw [e1]; dsimp only; omega

/-- An entry of the result lies in point `t`'s output block iff each coordinate lies in the block's range. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v8).slice (win0_2.rect t)).set ↔ _
  rw [View.set_slice_whole, Rect.mem_set_unit]
  exact Iff.rfl

/-- Every entry (r, o) of the result is written by the last point of the round of block (r / 1024, o / 1024). -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  have ht : 16 * ((i 0).val / 1024) + 4 * ((i 1).val / 1024) + 3 < cfg0.N := by omega
  obtain ⟨-, -, -, -, e0, e1⟩ := block_of_point ⟨_, ht⟩
  dsimp only at e0 e1
  refine ⟨⟨_, ht⟩, (flush0_2 ⟨_, ht⟩).mpr (by dsimp only; omega), ?_⟩
  rw [mem_block]
  intro a
  match a with
  | ⟨0, _⟩ => show win0_2.index ⟨_, ht⟩ (0 : Fin 2) * 1024 ≤ (i 0).val ∧ (i 0).val < win0_2.index ⟨_, ht⟩ (0 : Fin 2) * 1024 + 1024; rw [e0]; dsimp only; omega
  | ⟨1, _⟩ => show win0_2.index ⟨_, ht⟩ (1 : Fin 2) * 1024 ≤ (i 1).val ∧ (i 1).val < win0_2.index ⟨_, ht⟩ (1 : Fin 2) * 1024 + 1024; rw [e1]; dsimp only; omega

/-- So the result array ends holding X·Wᵀ. -/
theorem final (c : Dev nD) : (dats m 0 c).arrAt 2 cfg0.N = timesTransposed (lhsArr m c) (rhsArr m c) :=
  (dats m 0 c).arrAt_eq_of_cover 2 (timesTransposed (lhsArr m c) (rhsArr m c)) (flushed_eq m c) cover

end Cert.KernelIdeal.Result

end
-- ==== Proof.Program.lean ====
/-
  The whole idealized kernel program, read as a value.

  Before the kernel the host lines build the adapted weight W = base + 1·((U ∘ s)·Vᵀ) (`adaptedWeight`) and
  lay the [4, 2048, 4096] input out as 8192 rows; after it one line folds the 8192 result rows back into
  [4, 2048]. Both re-layouts keep the row-major position, so row 2048·b + s of the flat arrays is row (b, s) of
  the three-axis ones, and entry (b, s, o) of the program's result is

      Σₙ x[b, s, n] · W[o, n]            (n over the 4096 input features).
-/
import proofs.«153105_j25469156065845_1_alg».proof.Proof.Result

noncomputable section

open Idealize.ShloMosaic Idealize.ShloMosaic.TcCoe Idealize.SL.Sem
open Idealize.ShloMosaic.Pipeline (Dat)
open Idealize.ShloMosaic.ValueIdx
open scoped BigOperators

namespace Cert.KernelIdeal.Program

open Cert.KernelIdeal Cert.KernelIdeal.Gen Cert.KernelIdeal.Product Cert.KernelIdeal.Result

/-- The adapted weight, as the host lines compute it from the base weight, U, s and V. -/
def adaptedWeight (base : FVec Ideal S4096x4096 .f32) (u : FVec Ideal S4096x16 .f32) (s : FVec Ideal S16 .f32)
    (v : FVec Ideal S4096x16 .f32) : FVec Ideal S4096x4096 .f32 :=
  addf base (mulf (broadcastInDim S4096x4096 ![] bcast_S_S4096x4096 (constant (F := Ideal) S_ .f32 0x3F800000#32))
    (Host.dotGeneral (F := Ideal) dot_S4096x16_S4096x16_S4096x4096_1_1_0_0_n_n none
      (mulf u (broadcastInDim S4096x16 ![0, 1] bcast_S1x16_S4096x16_0_1 (broadcastInDim S1x16 ![1] bcast_S16_S1x16_1 s))) v))

variable (m : (ℓ : Loc nD τ sig) → Buf (Elt Ideal) ℓ) (ρ : Dev nD → PrngReg)

/-- The five arguments as launched, each as a plain array of its shape. -/
abbrev argX (c : Dev nD) : FVec Ideal S4x2048x4096 .f32 := m ((c : Thread nD τ).loc main_arg0)
abbrev argBase (c : Dev nD) : FVec Ideal S4096x4096 .f32 := m ((c : Thread nD τ).loc main_arg1)
abbrev argU (c : Dev nD) : FVec Ideal S4096x16 .f32 := m ((c : Thread nD τ).loc main_arg2)
abbrev argS (c : Dev nD) : FVec Ideal S16 .f32 := m ((c : Thread nD τ).loc main_arg3)
abbrev argV (c : Dev nD) : FVec Ideal S4096x16 .f32 := m ((c : Thread nD τ).loc main_arg4)

/-- The weight the kernel's region finds is the adapted weight of the arguments. -/
theorem rhsArr_eq (c : Dev nD) :
    rhsArr m c = adaptedWeight (argBase m c) (argU m c) (argS m c) (argV m c) := by
  show StableHlo.after hostOps0 (fun b => m (c, b)) (Proc.devRef .tc main_v6) = _
  after_results
  rfl

/-- The left operand the region finds is the input laid out as 8192 rows. -/
theorem lhsArr_eq (c : Dev nD) :
    lhsArr m c = shapeCast S8192x4096 (argX m c) shapeCasts_S4x2048x4096_S8192x4096 := by
  show StableHlo.after hostOps0 (fun b => m (c, b)) (Proc.devRef .tc main_v7) = _
  after_results
  rfl

/-- The program's result: X·Wᵀ folded back into [4, 2048, 4096]. -/
def result (c : Dev nD) : Vec Ideal S4x2048x4096 .f32 :=
  shapeCast S4x2048x4096 (timesTransposed (lhsArr m c) (rhsArr m c)) shapeCasts_S8192x4096_S4x2048x4096

/-- The host line after the kernel leaves exactly that in the result buffer. -/
theorem tail_eq (c : Dev nD) :
    Pipeline.afterTail₀ cfgs (dats m) 0 (V0 m) [hostOps1] c main_v9 = result m c := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = timesTransposed (lhsArr m c) (rhsArr m c) :=
    (Pipeline.withArrays_arr spec0 launch0.win.arr_inj c _ _ 2).trans (final m c)
  rw [e]
  rfl

/-- The idealized kernel program's run, read: the result buffer ends at `result`, the arguments as launched. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- Row 2048·b + s of the flat layout is row (b, s) of the three-axis one: both re-layouts keep the row-major position. -/
theorem flat_row (b : Fin 4) (s : Fin 2048) (n : Fin 4096) (R : Fin 8192) (hR : R.val = b.val * 2048 + s.val) :
    (S4x2048x4096.rowMajor (ix3 b s n)).val = (S8192x4096.rowMajor (ix2 R n)).val := by
  rw [Shape.rowMajor_val_three, Shape.rowMajor_val_two]
  show (b.val * 2048 + s.val) * 4096 + n.val = R.val * 4096 + n.val
  rw [hR]

/-- Entry (b, s, o) of the program's result: the input's row (b, s) against the adapted weight's row o. -/
theorem result_apply (c : Dev nD) (b : Fin 4) (s : Fin 2048) (o : Fin 4096) :
    result m c (ix3 b s o) = ∑ n : Fin 4096, argX m c (ix3 b s n)
      * adaptedWeight (argBase m c) (argU m c) (argS m c) (argV m c) (ix2 o n) := by
  have hb := b.isLt
  have hs := s.isLt
  unfold result
  refine (shapeCast_apply (timesTransposed (lhsArr m c) (rhsArr m c)) shapeCasts_S8192x4096_S4x2048x4096 (ix3 b s o)
    (ix2 (⟨b.val * 2048 + s.val, by omega⟩ : Fin 8192) o) (flat_row b s o _ rfl).symm).trans ?_
  show ∑ n : Fin 4096, lhsArr m c (ix2 (⟨b.val * 2048 + s.val, by omega⟩ : Fin 8192) n) * rhsArr m c (ix2 o n) = _
  refine Finset.sum_congr rfl fun n _ => ?_
  rw [rhsArr_eq]
  refine congrArg (· * adaptedWeight (argBase m c) (argU m c) (argS m c) (argV m c) (ix2 o n)) ?_
  rw [lhsArr_eq]
  exact shapeCast_apply (argX m c) shapeCasts_S4x2048x4096_S8192x4096 (ix2 (⟨b.val * 2048 + s.val, by omega⟩ : Fin 8192) n)
    (ix3 b s n) (flat_row b s n _ rfl)

end Cert.KernelIdeal.Program

end
-- ==== Proof.Reference.lean ====
/-
  The reference, entry by entry.

  The reference builds the same adapted weight W = base + 1·((U ∘ s)·Vᵀ) and then contracts the input's last axis
  with W's last axis in one go: entry (b, s, o) of its result is Σₙ x[b, s, n] · W[o, n] over the 4096 input
  features. The read-at-an-index lemmas for its operations are generated; all that is said here is that the
  operand positions they name are (b, s, n) and (o, n).
-/
import proofs.«153105_j25469156065845_1_alg».proof.Proof.Gen.ReferenceIdeal.Read

noncomputable section

open Idealize.ShloMosaic Idealize.ShloMosaic.TcCoe Idealize.SL.Sem
open Idealize.ShloMosaic.ValueIdx
open scoped BigOperators

namespace Cert.ReferenceIdeal.Entries

open Cert.ReferenceIdeal Cert.ReferenceIdeal.Read

/-- Entry (b, s, o) of the reference's result: the input's row (b, s) against the adapted weight's row o. -/
theorem result_apply (x : Vec Ideal S4x2048x4096 .f32) (base : Vec Ideal S4096x4096 .f32) (u : Vec Ideal S4096x16 .f32)
    (s : Vec Ideal S16 .f32) (v : Vec Ideal S4096x16 .f32) (i : S4x2048x4096.Idx) :
    val_main_v7 (F := Ideal) x base u s v i
      = ∑ n : Fin 4096, x (ix3 (i 0) (i 1) n) * val_main_v6 (F := Ideal) base u s v (ix2 (i 2) n) := by
  rw [val_main_v7_apply]
  refine Finset.sum_congr rfl fun n _ => ?_
  have el : lidx_main_v7 i n = ix3 (i 0) (i 1) n := funext fun a => Fin.ext (by
    match a with
    | ⟨0, _⟩ => rfl
    | ⟨1, _⟩ => rfl
    | ⟨2, _⟩ => rfl)
  have er : ridx_main_v7 i n = ix2 (i 2) n := funext fun a => Fin.ext (by
    match a with
    | ⟨0, _⟩ => rfl
    | ⟨1, _⟩ => rfl)
  rw [el, er]
  rfl

end Cert.ReferenceIdeal.Entries

end
-- ==== Proof.lean ====
/-
  A low-rank-adapted linear layer: the blocked kernel and the one-line reference compute the same function.

  Both programs first build the adapted weight  W = base + 1 · ((U ∘ s) · Vᵀ)  with the same host operations, so W is
  literally the same term on both sides. They then differ only in how they multiply the input by Wᵀ:

    * the reference contracts the input's feature axis with W's in one `dot_general`: entry (b, s, o) of its result
      is  Σₙ x[b, s, n] · W[o, n]  over all 4096 features;
    * the kernel lays the input out as 8192 rows, walks an 8 x 4 x 4 grid of 1024³ tiles, and for each output tile
      adds up the four quarter-products of the contracted axis one after the other into an accumulator that starts
      at zero,  (((0 + q₀) + q₁) + q₂) + q₃,  narrowing to bf16 before each product (the identity over the
      extended reals), and folds the rows back into [4, 2048].

  Over the extended reals a sum over 4096 positions IS the sum of its four quarters taken in order from zero — that
  needs only associativity of addition and `0 + a = a`, which hold with infinities present — so the two results agree
  entry by entry on every input, and the precondition (finite inputs) is never opened.

  The three frame claims are the generated frames (the reference's: its generated run with the result dropped); the
  idealization rewrote nothing, so `preserves` is trivial; `algebraic` puts the kernel's run, re-posted at its value
  (Proof/Program.lean), beside the reference's generated run and joins them by the two entry formulas.
-/
import proofs.«153105_j25469156065845_1_alg».proof.Defs
import proofs.«153105_j25469156065845_1_alg».proof.Proof.Gen.Kernel
import proofs.«153105_j25469156065845_1_alg».proof.Proof.Gen.Kernel.Skeleton
import proofs.«153105_j25469156065845_1_alg».proof.Proof.Gen.Kernel.Launch
import proofs.«153105_j25469156065845_1_alg».proof.Proof.Gen.Kernel.Points
import proofs.«153105_j25469156065845_1_alg».proof.Proof.Gen.Kernel.Frame
import proofs.«153105_j25469156065845_1_alg».proof.Proof.Gen.KernelIdeal
import proofs.«153105_j25469156065845_1_alg».proof.Proof.Gen.KernelIdeal.Skeleton
import proofs.«153105_j25469156065845_1_alg».proof.Proof.Gen.KernelIdeal.Launch
import proofs.«153105_j25469156065845_1_alg».proof.Proof.Gen.KernelIdeal.Points
import proofs.«153105_j25469156065845_1_alg».proof.Proof.Gen.KernelIdeal.Frame
import proofs.«153105_j25469156065845_1_alg».proof.Proof.Gen.ReferenceIdeal
import proofs.«153105_j25469156065845_1_alg».proof.Proof.Gen.Pre_finite_inputs
import proofs.«153105_j25469156065845_1_alg».proof.Proof.Gen.ReferenceIdeal.Run
import proofs.«153105_j25469156065845_1_alg».proof.Proof.Gen.ReferenceIdeal.Read
import proofs.«153105_j25469156065845_1_alg».proof.Proof.Program
import proofs.«153105_j25469156065845_1_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The two programs' adapted weights are one term: the same host operations of the same four arguments. -/
theorem weight_eq (base : FVec Ideal Cert.KernelIdeal.S4096x4096 .f32) (u : FVec Ideal Cert.KernelIdeal.S4096x16 .f32)
    (s : FVec Ideal Cert.KernelIdeal.S16 .f32) (v : FVec Ideal Cert.KernelIdeal.S4096x16 .f32) :
    Cert.ReferenceIdeal.Read.val_main_v6 (F := Ideal) base u s v = Cert.KernelIdeal.Program.adaptedWeight base u s v := rfl

/-- From memories that agree on the five arguments, both idealized programs end with  Σₙ x[b, s, n] · W[o, n]  at
    entry (b, s, o) of their results. -/
theorem algebraic : Cert.algebraic_KernelIdeal_ReferenceIdeal := by
  intro m ρ m' ρ' _ hagree
  refine ⟨fun c => Cert.KernelIdeal.Program.result m c, Cert.KernelIdeal.Program.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq (F := Ideal) _ _ _ _ _).trans ?_
  rw [(hagree c).1, (hagree c).2.1, (hagree c).2.2.1, (hagree c).2.2.2.1, (hagree c).2.2.2.2]
  funext i
  obtain ⟨b, s, o, rfl⟩ : ∃ (b : Fin 4) (s : Fin 2048) (o : Fin 4096), i = ix3 b s o := ⟨i 0, i 1, i 2, eq_ix3 i⟩
  rw [Cert.ReferenceIdeal.Entries.result_apply, weight_eq]
  exact (Cert.KernelIdeal.Program.result_apply m c b s o).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
